-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S100000x1x1024 : Shape := ⟨3, ![100000, 1, 1024]⟩
abbrev S100000x1024 : Shape := ⟨2, ![100000, 1024]⟩
abbrev S1024x512 : Shape := ⟨2, ![1024, 512]⟩
abbrev S512 : Shape := ⟨1, ![512]⟩
abbrev S_ : Shape := ⟨0, ![]⟩

class Facts : Prop where
  bcast_S_S100000x1x1024 : S_.BroadcastsInDim S100000x1x1024 (![] : Fin 0 → Fin S100000x1x1024.rank)
  reducesTo_S100000x1x1024_S_d0_1_2 : S100000x1x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S1024x512 .f32) (main_arg6 : FVec F S512 .f32) (main_arg7 : FVec F S1024x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg8 main_v33

def fn {F : FTy → Type} [FloatOps F] (main_arg0 : IVec S65536 32) (main_arg1 : FVec F S100000x1x1024 .f32) (main_arg2 : FVec F S100000x1024 .f32) (main_arg3 : FVec F S1024x512 .f32) (main_arg4 : FVec F S512 .f32) (main_arg5 : FVec F S1024x512 .f32) (main_arg6 : FVec F S512 .f32) (main_arg7 : FVec F S1024x512 .f32) (main_arg8 : FVec F S512 .f32) : IVec S_ 1 :=
  let main_v0 : FVec F S100000x1x1024 .f32 := Host.absf main_arg1
  let main_cst : FVec F S_ .f32 := constant S_ .f32 0x7F800000#32
  let main_v1 : FVec F S100000x1x1024 .f32 := broadcastInDim S100000x1x1024 ![] bcast_S_S100000x1x1024 main_cst
  let main_v2 : IVec S100000x1x1024 1 := cmpf .olt main_v0 main_v1
  let main_c : IVec S_ 1 := constantI S_ 1 1#1
  let main_v3 : IVec S_ 1 := (fun x v => Host.reduce IntOp.andi x v reducesTo_S100000x1x1024_S_d0_1_2 h_S_) main_v2 main_c
  let main_v4 : FVec F S100000x1024 .f32 := Host.absf main_arg2
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S65536 : Shape := ⟨1, ![65536]⟩
abbrev S100000x1x1024 : Shape := ⟨3, ![100000, 1, 1024]⟩
abbrev S100000x1024 : Shape := ⟨2, ![100000, 1024]⟩
abbrev S1024x512 : Shape := ⟨2, ![1024, 512]⟩
abbrev S512 : Shape := ⟨1, ![512]⟩
abbrev S_ : Shape := ⟨0, ![]⟩
abbrev S65536x1 : Shape := ⟨2, ![65536, 1]⟩
abbrev S65536x1x1024 : Shape := ⟨3, ![65536, 1, 1024]⟩
abbrev S65536x1024 : Shape := ⟨2, ![65536, 1024]⟩
abbrev S1x512 : Shape := ⟨2, ![1, 512]⟩
abbrev S65536x512 : Shape := ⟨2, ![65536, 512]⟩
abbrev S1024x1024 : Shape := ⟨2, ![1024, 1024]⟩

abbrev nBuf : Space → Nat
  | .hbm => 41
  | .vmem => 14
  | .smem => 0
  | _ => 0

abbrev bufTy : (tb : Table) → Fin (tcTables nBuf tb) → BufTy
  | .hbm, ⟨0, _⟩ => ⟨S65536, .i32⟩
  | .hbm, ⟨1, _⟩ => ⟨S100000x1x1024, .f32⟩
  | .hbm, ⟨2, _⟩ => ⟨S100000x1024, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1x1024, .f32⟩
  | .hbm, ⟨18, _⟩ => ⟨S_, .f32⟩
  | .hbm, ⟨19, _⟩ => ⟨S65536x1, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .bf16⟩
  | .hbm, ⟨32, _⟩ => ⟨S1024x512, .bf16⟩
  | .hbm, ⟨33, _⟩ => ⟨S1024x512, .bf16⟩
  | .hbm, ⟨34, _⟩ => ⟨S1024x512, .bf16⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S65536x512, .f32⟩
  | .hbm, ⟨39, _⟩ => ⟨S65536x512, .f32⟩
  | .hbm, ⟨40, _⟩ => ⟨S65536x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1x512, .f32⟩
  | .local _ .vmem, ⟨4, _⟩ => ⟨S1024x512, .bf16⟩
  | .local _ .vmem, ⟨5, _⟩ => ⟨S1x512, .f32⟩
  | .local _ .vmem, ⟨6, _⟩ => ⟨S1024x512, .bf16⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x1x1024_S65536x1_d2 : S65536x1x1024.ReducesTo [2] S65536x1
  h_S_ : 0 < S_.numel
  bcast_S65536x1_S65536x1024_0_1 : S65536x1.BroadcastsInDim S65536x1024 (![0, 1] : Fin 2 → Fin S65536x1024.rank)
  bitsLt_bf16_f32 : FTy.bits .bf16 < FTy.bits .f32
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  gather_S100000x1x1024_S65536x1_S65536x1x1024_12_0_n_n_0_1_111024_wf : GatherDims.WF S100000x1x1024 S65536x1 S65536x1x1024 [1, 2] [0] [] [0] [] 1 ![1, 1, 1024]
  gather_S100000x1024_S65536x1_S65536x1024_1_0_n_n_0_1_11024_wf : GatherDims.WF S100000x1024 S65536x1 S65536x1024 [1] [0] [] [0] [] 1 ![1, 1024]
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .bf16 = 32 ∨ (Rect.block (s := S65536x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S65536x512.size a
  hwx0_7 : ∀ i : grid0.Coords, EltTy.bits .f32 = 32 ∨ (Rect.block (s := S65536x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S65536x512.size a
  hwx0_8 : ∀ i : grid0.Coords, EltTy.bits .f32 = 32 ∨ (Rect.block (s := S65536x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S65536x512.size a
  hwx0_9 : ∀ i : grid0.Coords, EltTy.bits .f32 = 32 ∨ (Rect.block (s := S65536x512) S1024x512.size (cc0_transform_9 i) (hinb0_9 i)).WholeWords (EltTy.packing .f32)

variable [Facts₀]

def gather_S100000x1x1024_S65536x1_S65536x1x1024_12_0_n_n_0_1_111024 : GatherDims S100000x1x1024 S65536x1 S65536x1x1024 where
  offsetDims := [1, 2]
  collapsedSliceDims := [0]
  operandBatchingDims := []
  startIndicesBatchingDims := []
  startIndexMap := [0]
  indexVectorDim := 1
  sliceSizes := ![1, 1, 1024]
  wf := gather_S100000x1x1024_S65536x1_S65536x1x1024_12_0_n_n_0_1_111024_wf
def gather_S100000x1024_S65536x1_S65536x1024_1_0_n_n_0_1_11024 : GatherDims S100000x1024 S65536x1 S65536x1024 where
  offsetDims := [1]
  collapsedSliceDims := [0]
  operandBatchingDims := []
  startIndicesBatchingDims := []
  startIndexMap := [0]
  indexVectorDim := 1
  sliceSizes := ![1, 1024]
  wf := gather_S100000x1024_S65536x1_S65536x1024_1_0_n_n_0_1_11024_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v17) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536 : Shape := ⟨1, ![65536]⟩
abbrev S100000x1x1024 : Shape := ⟨3, ![100000, 1, 1024]⟩
abbrev S100000x1024 : Shape := ⟨2, ![100000, 1024]⟩
abbrev S1024x512 : Shape := ⟨2, ![1024, 512]⟩
abbrev S512 : Shape := ⟨1, ![512]⟩
abbrev S_ : Shape := ⟨0, ![]⟩
abbrev S65536x1 : Shape := ⟨2, ![65536, 1]⟩
abbrev S65536x1x1024 : Shape := ⟨3, ![65536, 1, 1024]⟩
abbrev S65536x1024 : Shape := ⟨2, ![65536, 1024]⟩
abbrev S65536x512 : Shape := ⟨2, ![65536, 512]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S65536, .i32⟩
  | .hbm, ⟨1, _⟩ => ⟨S100000x1x1024, .f32⟩
  | .hbm, ⟨2, _⟩ => ⟨S100000x1024, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x1x1024, .f32⟩
  | .hbm, ⟨18, _⟩ => ⟨S_, .f32⟩
  | .hbm, ⟨19, _⟩ => ⟨S65536x1, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x512, .f32⟩
  | .hbm, ⟨32, _⟩ => ⟨S1x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S1x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S_, .f32⟩
  | .hbm, ⟨50, _⟩ => ⟨S65536x512, .f32⟩
  | .hbm, ⟨51, _⟩ => ⟨S65536x512, .f32⟩
  | .hbm, ⟨52, _⟩ => ⟨S_, .f32⟩
  | .hbm, ⟨53, _⟩ => ⟨S65536x512, .f32⟩
  | .hbm, ⟨54, _⟩ => ⟨S65536x512, .f32⟩
  | .hbm, ⟨55, _⟩ => ⟨S65536x512, .f32⟩
  | .hbm, ⟨56, _⟩ => ⟨S1x512, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S65536x512, .f32⟩
  | .hbm, ⟨61, _⟩ => ⟨S_, .f32⟩
  | .hbm, ⟨62, _⟩ => ⟨S65536x512, .f32⟩
  | .hbm, ⟨63, _⟩ => ⟨S65536x512, .f32⟩
  | .hbm, ⟨64, _⟩ => ⟨S_, .f32⟩
  | .hbm, ⟨65, _⟩ => ⟨S65536x512, .f32⟩
  | .hbm, ⟨66, _⟩ => ⟨S65536x512, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x1x1024_S65536x1_d2 : S65536x1x1024.ReducesTo [2] S65536x1
  h_S_ : 0 < S_.numel
  bcast_S65536x1_S65536x1024_0_1 : S65536x1.BroadcastsInDim S65536x1024 (![0, 1] : Fin 2 → Fin S65536x1024.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  gather_S100000x1x1024_S65536x1_S65536x1x1024_12_0_n_n_0_1_111024_wf : GatherDims.WF S100000x1x1024 S65536x1 S65536x1x1024 [1, 2] [0] [] [0] [] 1 ![1, 1, 1024]
  gather_S100000x1024_S65536x1_S65536x1024_1_0_n_n_0_1_11024_wf : GatherDims.WF S100000x1024 S65536x1 S65536x1024 [1] [0] [] [0] [] 1 ![1, 1024]
  dot_S65536x1024_S1024x512_S65536x512_1_0_0_1_n_n_wf : DotDims.WF S65536x1024 S1024x512 S65536x512 [1] [0] [0] [1] [] []

variable [Facts₀]

def gather_S100000x1x1024_S65536x1_S65536x1x1024_12_0_n_n_0_1_111024 : GatherDims S100000x1x1024 S65536x1 S65536x1x1024 where
  offsetDims := [1, 2]
  collapsedSliceDims := [0]
  operandBatchingDims := []
  startIndicesBatchingDims := []
  startIndexMap := [0]
  indexVectorDim := 1
  sliceSizes := ![1, 1, 1024]
  wf := gather_S100000x1x1024_S65536x1_S65536x1x1024_12_0_n_n_0_1_111024_wf
def gather_S100000x1024_S65536x1_S65536x1024_1_0_n_n_0_1_11024 : GatherDims S100000x1024 S65536x1 S65536x1024 where
  offsetDims := [1]
  collapsedSliceDims := [0]
  operandBatchingDims := []
  startIndicesBatchingDims := []
  startIndexMap := [0]
  indexVectorDim := 1
  sliceSizes := ![1, 1024]
  wf := gather_S100000x1024_S65536x1_S65536x1024_1_0_n_n_0_1_11024_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.TileGate.lean ====
/-
  One tile of a gate, index by index.

  At a grid point the body holds a tile of 1024 rows of x (1024 x 1024), a whole weight matrix (1024 x 512) and the
  bias as a single row (1 x 512).  Each of its three stores writes

      logistic ( tile * weights  +  bias row repeated down the 1024 rows ),

  the product accumulated into zeros.  On the extended reals the product at (p, q) is the sum over k of
  tile (p, k) * weights (k, q): nothing is left of the order or grouping in which it was accumulated, and adding the
  zero accumulator changes nothing.  So entry (p, q) of what a store writes is

      logistic ( sum_k tile (p, k) * weights (k, q)  +  bias (0, q) ).

  The three stores apply the same operations to (tile, Wq, bq), (tile, Ws, bs) and (tile, Wk, bk).
-/
import proofs.«123083_j75935021793842_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx

/-! ## The product's operand indices: at output index (p, q) and contraction coordinate k they are (p, k) and (k, q) -/

theorem lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_col (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_row (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The tile's product with a weight matrix, accumulated into zeros, at (p, q): the sum over k of
    tile (p, k) * weights (k, q). -/
theorem product_apply (x : FVec Ideal S1024x1024 .bf16) (w : FVec Ideal S1024x512 .bf16) (p : Fin 1024) (q : Fin 512) :
    matmul (F := Ideal) dot_S1024x1024_S1024x512_S1024x512_1_0_0_1_n_n none x w (constant (F := Ideal) S1024x512 .f32 0x00000000#32) (ix2 p q)
      = ∑ k : Fin 1024, x (ix2 p k) * w (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The bias row repeated down the rows: entry (p, q) is the row's entry (0, q). -/
theorem bias_apply (b : FVec Ideal S1x512 .f32) (p : Fin 1024) (q : Fin 512) :
    broadcastTo S1024x512 b broadcasts_S1x512_S1024x512 (ix2 p q) = b (ix2 0 q) :=
  broadcastTo_apply b broadcasts_S1x512_S1024x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- What the first store writes at (p, q), from the tile of x, the weights Wq and the bias row bq. -/
theorem store_q_apply (x : Vec Ideal S1024x1024 .bf16) (w : Vec Ideal S1024x512 .bf16) (b : Vec Ideal S1x512 .f32)
    (p : Fin 1024) (q : Fin 512) :
    k0_pay2 (F := Ideal) x w b (ix2 p q) = Ideal.logistic ((∑ k : Fin 1024, x (ix2 p k) * w (ix2 k q)) + b (ix2 0 q)) := by
  unfold k0_pay2 k0_pay1
  rw [shapeCast_self, shapeCast_self, shapeCast_self]
  show Ideal.logistic (matmul (F := Ideal) dot_S1024x1024_S1024x512_S1024x512_1_0_0_1_n_n none x w (constant (F := Ideal) S1024x512 .f32 0x00000000#32) (ix2 p q)
      + broadcastTo S1024x512 b broadcasts_S1x512_S1024x512 (ix2 p q)) = _
  rw [product_apply, bias_apply]

/-- The second and third stores apply the same operations to their own weights and bias row. -/
theorem store_s_eq (x : Vec Ideal S1024x1024 .bf16) (w : Vec Ideal S1024x512 .bf16) (b : Vec Ideal S1x512 .f32) :
    k0_pay3 (F := Ideal) x w b = k0_pay2 (F := Ideal) x w b := rfl
theorem store_k_eq (x : Vec Ideal S1024x1024 .bf16) (w : Vec Ideal S1024x512 .bf16) (b : Vec Ideal S1x512 .f32) :
    k0_pay4 (F := Ideal) x w b = k0_pay2 (F := Ideal) x w b := rfl

end Cert.KernelIdeal.Tile

end
-- ==== Proof.Staged.lean ====
/-
  What the call finds in the arrays it stages, and which entries of them a grid point's blocks hold.

  Before the call the program forms, with plain host operations,

    * the rows x : 65536 x 1024 — row sums of the gathered memories spread along each row, plus the gathered
      embeddings — narrowed to bf16;
    * the three weight matrices narrowed to bf16;
    * the three biases reshaped from 512 entries to one row of 512.

  The call walks 64 grid points; point t stages rows 1024 t .. 1024 t + 1023 of x (all 1024 columns), and the whole of
  every weight matrix and bias row.  An entry y of the tile of x is therefore entry (1024 t + y 0, y 1) of x, and an entry
  of a staged weight matrix or bias row is the same entry of the array.
-/
import proofs.«123083_j75935021793842_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-! ## The arrays as the call finds them -/

/-- The rows x, from the node ids, the memories and the embeddings: a negative id counts from the end, each id picks a
    memory row and an embedding row, the memory row is summed and the sum added to every entry of the embedding row. -/
def rows (ids : (⟨S65536, .i32⟩ : BufTy).Contents (Elt F)) (mem : (⟨S100000x1x1024, .f32⟩ : BufTy).Contents (Elt F))
    (emb : (⟨S100000x1024, .f32⟩ : BufTy).Contents (Elt F)) : (⟨S65536x1024, .f32⟩ : BufTy).Contents (Elt F) :=
  addf
    (broadcastInDim S65536x1024 ![0, 1] bcast_S65536x1_S65536x1024_0_1
      (Host.reduceAdd
        (Host.gather gather_S100000x1x1024_S65536x1_S65536x1x1024_12_0_n_n_0_1_111024 mem
          (broadcastInDim S65536x1 ![0] bcast_S65536_S65536x1_0
            (select (cmpi .slt ids (broadcastInDim S65536 ![] bcast_S_S65536 (constantI S_ 32 0#32)))
              (addi ids (broadcastInDim S65536 ![] bcast_S_S65536 (constantI S_ 32 100000#32))) ids)))
        (constant S_ .f32 0x00000000#32) reducesTo_S65536x1x1024_S65536x1_d2 h_S_))
    (Host.gather gather_S100000x1024_S65536x1_S65536x1024_1_0_n_n_0_1_11024 emb
      (broadcastInDim S65536x1 ![0] bcast_S65536_S65536x1_0
        (select (cmpi .slt ids (broadcastInDim S65536 ![] bcast_S_S65536 (constantI S_ 32 0#32)))
          (addi ids (broadcastInDim S65536 ![] bcast_S_S65536 (constantI S_ 32 100000#32))) ids)))

set_option maxHeartbeats 2000000 in
set_option maxRecDepth 8192 in
/-- The staged x is the rows, narrowed to bf16. -/
theorem x_staged (c : Dev nD) :
    (V m c main_v17 : (⟨S65536x1024, .bf16⟩ : BufTy).Contents (Elt F))
      = truncf .bf16 (rows (m ((c : Thread nD τ).loc main_arg0)) (m ((c : Thread nD τ).loc main_arg1)) (m ((c : Thread nD τ).loc main_arg2))) bitsLt_bf16_f32 := by
  dsimp only [V, hostOps0]
  after_results_simp
  rfl

set_option maxHeartbeats 2000000 in
set_option maxRecDepth 8192 in
/-- The staged weight matrices are the arguments narrowed to bf16. -/
theorem wq_staged (c : Dev nD) :
    (V m c main_v18 : (⟨S1024x512, .bf16⟩ : BufTy).Contents (Elt F)) = truncf .bf16 (m ((c : Thread nD τ).loc main_arg3)) bitsLt_bf16_f32 := by
  dsimp only [V, hostOps0]
  after_results_simp
set_option maxHeartbeats 2000000 in
set_option maxRecDepth 8192 in
theorem ws_staged (c : Dev nD) :
    (V m c main_v19 : (⟨S1024x512, .bf16⟩ : BufTy).Contents (Elt F)) = truncf .bf16 (m ((c : Thread nD τ).loc main_arg5)) bitsLt_bf16_f32 := by
  dsimp only [V, hostOps0]
  after_results_simp
set_option maxHeartbeats 2000000 in
set_option maxRecDepth 8192 in
theorem wk_staged (c : Dev nD) :
    (V m c main_v20 : (⟨S1024x512, .bf16⟩ : BufTy).Contents (Elt F)) = truncf .bf16 (m ((c : Thread nD τ).loc main_arg7)) bitsLt_bf16_f32 := by
  dsimp only [V, hostOps0]
  after_results_simp

set_option maxHeartbeats 2000000 in
set_option maxRecDepth 8192 in
/-- The staged bias rows are the arguments reshaped to one row. -/
theorem bq_staged (c : Dev nD) :
    (V m c main_v21 : (⟨S1x512, .f32⟩ : BufTy).Contents (Elt F)) = shapeCast S1x512 (m ((c : Thread nD τ).loc main_arg4)) shapeCasts_S512_S1x512 := by
  dsimp only [V, hostOps0]
  after_results_simp
  rfl
set_option maxHeartbeats 2000000 in
set_option maxRecDepth 8192 in
theorem bs_staged (c : Dev nD) :
    (V m c main_v22 : (⟨S1x512, .f32⟩ : BufTy).Contents (Elt F)) = shapeCast S1x512 (m ((c : Thread nD τ).loc main_arg6)) shapeCasts_S512_S1x512 := by
  dsimp only [V, hostOps0]
  after_results_simp
  rfl
set_option maxHeartbeats 2000000 in
set_option maxRecDepth 8192 in
theorem bk_staged (c : Dev nD) :
    (V m c main_v23 : (⟨S1x512, .f32⟩ : BufTy).Contents (Elt F)) = shapeCast S1x512 (m ((c : Thread nD τ).loc main_arg8)) shapeCasts_S512_S1x512 := by
  dsimp only [V, hostOps0]
  after_results_simp
  rfl

/-- Entry (0, q) of a bias reshaped to one row is entry q of the bias. -/
theorem bias_row_apply {α : Type} (b : S512.Idx → α) (q : Fin 512) :
    shapeCast S1x512 b shapeCasts_S512_S1x512 (ValueIdx.ix2 0 q) = b (ValueIdx.ix1 q) :=
  shapeCast_apply b shapeCasts_S512_S1x512 (ValueIdx.ix2 0 q) (ValueIdx.ix1 q) (by
    rw [Shape.rowMajor_val_one, Shape.rowMajor_val_two]
    show q.val = 0 * 512 + q.val
    omega)

/-! ## The blocks at a grid point -/

/-- The block indices of the windows that move with the point, decided over the 64 points: the tile of x and the three
    output tiles sit at block row t, block column 0. -/
theorem moving_index : ∀ t : Fin cfg0.N,
    (win0_0.index t (0 : Fin 2) = t.val ∧ win0_0.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The block indices of the resident windows, decided over the 64 points: every weight matrix and bias row sits at
    block (0, 0) at every point. -/
theorem resident_index : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Where an entry of a block sits in its array: on each axis at block index x block size + the entry's own coordinate.
    With the block index known on both axes, that names the array entry. -/
theorem entry_of_block {n0 n1 b0 b1 : Nat} (idx : Fin 2 → Nat) (r0 r1 : Nat) (h0 : idx 0 = r0) (h1 : idx 1 = r1)
    (y : (⟨2, ![b0, b1]⟩ : Shape).Idx) (z i : (⟨2, ![n0, n1]⟩ : Shape).Idx)
    (hz0 : (z 0).val = idx 0 * b0 + 1 * (y 0).val) (hz1 : (z 1).val = idx 1 * b1 + 1 * (y 1).val)
    (hi0 : (i 0).val = r0 * b0 + (y 0).val) (hi1 : (i 1).val = r1 * b1 + (y 1).val) : z = i :=
  funext fun a => Fin.ext (by
    match a with
    | ⟨0, _⟩ => show (z 0).val = (i 0).val; rw [hz0, hi0, h0]; omega
    | ⟨1, _⟩ => show (z 1).val = (i 1).val; rw [hz1, hi1, h1]; omega)

/-- The tile of x at point t holds rows 1024 t .. of the staged x. -/
theorem x_tile_apply (c : Dev nD) (t : Fin cfg0.N) (y : S1024x1024.Idx) (i : S65536x1024.Idx)
    (hi0 : (i 0).val = t.val * 1024 + (y 0).val) (hi1 : (i 1).val = (y 1).val) :
    (iblk m c 0 t : Vec F S1024x1024 .bf16) y = (V m c main_v17 : (⟨S65536x1024, .bf16⟩ : BufTy).Contents (Elt F)) i := by
  obtain ⟨⟨h0, h1⟩, -⟩ := moving_index t
  unfold iblk
  rw [View.read_apply, cast_eq]
  exact congrArg (V m c main_v17) (entry_of_block (win0_0.index t) t.val 0 h0 h1 y _ i rfl rfl hi0 (by omega))

/-- Every weight matrix and bias row is staged whole: an entry of the block is the same entry of the array. -/
theorem wq_block_apply (c : Dev nD) (t : Fin cfg0.N) (y : S1024x512.Idx) :
    (iblk m c 1 t : Vec F S1024x512 .bf16) y = (V m c main_v18 : (⟨S1024x512, .bf16⟩ : BufTy).Contents (Elt F)) y := by
  obtain ⟨⟨h0, h1⟩, -⟩ := resident_index t
  unfold iblk
  rw [View.read_apply, cast_eq]
  exact congrArg (V m c main_v18) (entry_of_block (win0_1.index t) 0 0 h0 h1 y _ y rfl rfl (by omega) (by omega))
theorem bq_block_apply (c : Dev nD) (t : Fin cfg0.N) (y : S1x512.Idx) :
    (iblk m c 2 t : Vec F S1x512 .f32) y = (V m c main_v21 : (⟨S1x512, .f32⟩ : BufTy).Contents (Elt F)) y := by
  obtain ⟨-, ⟨h0, h1⟩, -⟩ := resident_index t
  unfold iblk
  rw [View.read_apply, cast_eq]
  exact congrArg (V m c main_v21) (entry_of_block (win0_2.index t) 0 0 h0 h1 y _ y rfl rfl (by omega) (by omega))
theorem ws_block_apply (c : Dev nD) (t : Fin cfg0.N) (y : S1024x512.Idx) :
    (iblk m c 3 t : Vec F S1024x512 .bf16) y = (V m c main_v19 : (⟨S1024x512, .bf16⟩ : BufTy).Contents (Elt F)) y := by
  obtain ⟨-, -, ⟨h0, h1⟩, -⟩ := resident_index t
  unfold iblk
  rw [View.read_apply, cast_eq]
  exact congrArg (V m c main_v19) (entry_of_block (win0_3.index t) 0 0 h0 h1 y _ y rfl rfl (by omega) (by omega))
theorem bs_block_apply (c : Dev nD) (t : Fin cfg0.N) (y : S1x512.Idx) :
    (iblk m c 4 t : Vec F S1x512 .f32) y = (V m c main_v22 : (⟨S1x512, .f32⟩ : BufTy).Contents (Elt F)) y := by
  obtain ⟨-, -, -, ⟨h0, h1⟩, -⟩ := resident_index t
  unfold iblk
  rw [View.read_apply, cast_eq]
  exact congrArg (V m c main_v22) (entry_of_block (win0_4.index t) 0 0 h0 h1 y _ y rfl rfl (by omega) (by omega))
theorem wk_block_apply (c : Dev nD) (t : Fin cfg0.N) (y : S1024x512.Idx) :
    (iblk m c 5 t : Vec F S1024x512 .bf16) y = (V m c main_v20 : (⟨S1024x512, .bf16⟩ : BufTy).Contents (Elt F)) y := by
  obtain ⟨-, -, -, -, ⟨h0, h1⟩, -⟩ := resident_index t
  unfold iblk
  rw [View.read_apply, cast_eq]
  exact congrArg (V m c main_v20) (entry_of_block (win0_5.index t) 0 0 h0 h1 y _ y rfl rfl (by omega) (by omega))
theorem bk_block_apply (c : Dev nD) (t : Fin cfg0.N) (y : S1x512.Idx) :
    (iblk m c 6 t : Vec F S1x512 .f32) y = (V m c main_v23 : (⟨S1x512, .f32⟩ : BufTy).Contents (Elt F)) y := by
  obtain ⟨-, -, -, -, -, h0, h1⟩ := resident_index t
  unfold iblk
  rw [View.read_apply, cast_eq]
  exact congrArg (V m c main_v23) (entry_of_block (win0_6.index t) 0 0 h0 h1 y _ y rfl rfl (by omega) (by omega))

end Cert.KernelIdeal.Staged

end
-- ==== Proof.Blocks.lean ====
/-
  From tiles to arrays: each result array of the call is the gate over the staged arrays.

  Point t of the 64 writes, into rows 1024 t .. 1024 t + 1023 of each of the three results, what the body's three
  stores left: at (p, q) the logistic of (tile of x . weights)(p, q) + bias row (0, q).  The tile of x is rows
  1024 t .. of the staged x and the weights and bias rows are staged whole, so the entry written at (1024 t + p, q) is

      logistic ( sum_k x (1024 t + p, k) * W (k, q) + b (0, q) ),

  which does not mention t: the 64 tiles are restrictions of ONE function of the staged arrays.  Row r of a result
  lies in tile r / 1024, so the tiles cover every result and each result ends at that function.
-/
import proofs.«123083_j75935021793842_1_alg».proof.Proof.Gen.KernelIdeal.Value
import proofs.«123083_j75935021793842_1_alg».proof.Proof.TileGate
import proofs.«123083_j75935021793842_1_alg».proof.Proof.Staged

noncomputable section

namespace Cert.KernelIdeal.Gated

open Cert.KernelIdeal Cert.KernelIdeal.Gen Cert.KernelIdeal.Value Cert.KernelIdeal.Staged Cert.KernelIdeal.Tile
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The gate over the arrays as staged: x and the weights as their staged (narrowed) arrays, the bias as one row. -/
def tiled (X : S65536x1024.Idx → EReal) (W : S1024x512.Idx → EReal) (B : S1x512.Idx → EReal) : S65536x512.Idx → EReal :=
  fun i => Ideal.logistic ((∑ k : Fin 1024, X (ix2 (i 0) k) * W (ix2 k (i 1))) + B (ix2 0 (i 1)))

/-- THE ARGUMENT, once.  What a store writes at entry j of its tile is `tiled` at row 1024 n + j 0, column j 1, when the
    tile of x is rows 1024 n .. of X and the weights and the bias row are the whole of W and B: the sum over k at
    (p, q) of the tile is the sum over k at (1024 n + p, q) of X, term by term. -/
theorem store_eq_tiled (X : S65536x1024.Idx → EReal) (W : S1024x512.Idx → EReal) (B : S1x512.Idx → EReal)
    (xt : Vec Ideal S1024x1024 .bf16) (wt : Vec Ideal S1024x512 .bf16) (bt : Vec Ideal S1x512 .f32) (n : Nat)
    (hx : ∀ (y : S1024x1024.Idx) (i : S65536x1024.Idx), (i 0).val = n * 1024 + (y 0).val → (i 1).val = (y 1).val → xt y = X i)
    (hw : ∀ y : S1024x512.Idx, wt y = W y) (hb : ∀ y : S1x512.Idx, bt y = B y)
    (j : S1024x512.Idx) (i : S65536x512.Idx) (hi0 : (i 0).val = n * 1024 + (j 0).val) (hi1 : (i 1).val = (j 1).val) :
    k0_pay2 (F := Ideal) xt wt bt j = tiled X W B i := by
  obtain ⟨p, q, rfl⟩ : ∃ (p : Fin 1024) (q : Fin 512), j = ix2 p q := ⟨j 0, j 1, eq_ix2 j⟩
  obtain ⟨r, q', rfl⟩ : ∃ (r : Fin 65536) (q' : Fin 512), i = ix2 r q' := ⟨i 0, i 1, eq_ix2 i⟩
  obtain rfl : q' = q := Fin.ext hi1
  rw [store_q_apply, hb]
  show _ = Ideal.logistic ((∑ k : Fin 1024, X (ix2 r k) * W (ix2 k q')) + B (ix2 0 q'))
  congr 2
  refine Finset.sum_congr rfl fun k _ => ?_
  rw [hx (ix2 p k) (ix2 r k) hi0 rfl, hw]

/-! ## What the body leaves in each output buffer: one whole-buffer store of a value of whole-buffer loads -/

theorem query_left (x0 : Vec Ideal S1024x1024 .bf16) (x1 : Vec Ideal S1024x512 .bf16) (x2 : Vec Ideal S1x512 .f32)
    (x3 : Vec Ideal S1024x512 .bf16) (x4 : Vec Ideal S1x512 .f32) (x5 : Vec Ideal S1024x512 .bf16) (x6 : Vec Ideal S1x512 .f32) :
    out0_7 x0 x1 x2 x3 x4 x5 x6 = k0_pay2 x0 x1 x2 := by
  unfold out0_7
  rw [View.canon_unit_zero hz]
  simp only [View.ld_unit_zero (S := S1024x1024) hz, View.ld_unit_zero (S := S1024x512) hz, View.ld_unit_zero (S := S1x512) hz]

theorem state_left (x0 : Vec Ideal S1024x1024 .bf16) (x1 : Vec Ideal S1024x512 .bf16) (x2 : Vec Ideal S1x512 .f32)
    (x3 : Vec Ideal S1024x512 .bf16) (x4 : Vec Ideal S1x512 .f32) (x5 : Vec Ideal S1024x512 .bf16) (x6 : Vec Ideal S1x512 .f32) :
    out0_8 x0 x1 x2 x3 x4 x5 x6 = k0_pay2 x0 x3 x4 := by
  unfold out0_8
  rw [View.canon_unit_zero hz]
  simp only [View.ld_unit_zero (S := S1024x1024) hz, View.ld_unit_zero (S := S1024x512) hz, View.ld_unit_zero (S := S1x512) hz]
  exact store_s_eq x0 x3 x4

theorem key_left (x0 : Vec Ideal S1024x1024 .bf16) (x1 : Vec Ideal S1024x512 .bf16) (x2 : Vec Ideal S1x512 .f32)
    (x3 : Vec Ideal S1024x512 .bf16) (x4 : Vec Ideal S1x512 .f32) (x5 : Vec Ideal S1024x512 .bf16) (x6 : Vec Ideal S1x512 .f32) :
    out0_9 x0 x1 x2 x3 x4 x5 x6 = k0_pay2 x0 x5 x6 := by
  unfold out0_9
  rw [View.canon_unit_zero hz]
  simp only [View.ld_unit_zero (S := S1024x1024) hz, View.ld_unit_zero (S := S1024x512) hz, View.ld_unit_zero (S := S1x512) hz]
  exact store_k_eq x0 x5 x6

/-! ## What each point writes back: block t of `tiled` -/

/-- Point t writes block t of the gate over the staged x, Wq and the bq row into the first result. -/
theorem flushed7_eq (c : Dev nD) (t : Fin cfg0.N) :
    (dats m 0 c).flushed 7 t
      = ((cfg0.win 7).blk t).view.read (Elt Ideal) (tiled (V m c main_v17) (V m c main_v18) (V m c main_v21)) := by
  obtain ⟨-, ⟨h0, h1⟩, -⟩ := moving_index t
  rw [flushed7, query_left]
  funext j
  rw [View.read_apply, cast_eq]
  refine store_eq_tiled (V m c main_v17) (V m c main_v18) (V m c main_v21) (iblk m c 0 t) (iblk m c 1 t) (iblk m c 2 t) t.val
    (x_tile_apply m c t) (wq_block_apply m c t) (bq_block_apply m c t) j _ ?_ ?_
  · show win0_7.index t (0 : Fin 2) * 1024 + 1 * (j 0).val = t.val * 1024 + (j 0).val
    rw [h0]; omega
  · show win0_7.index t (1 : Fin 2) * 512 + 1 * (j 1).val = (j 1).val
    rw [h1]; omega

/-- The second result likewise, with Ws and the bs row. -/
theorem flushed8_eq (c : Dev nD) (t : Fin cfg0.N) :
    (dats m 0 c).flushed 8 t
      = ((cfg0.win 8).blk t).view.read (Elt Ideal) (tiled (V m c main_v17) (V m c main_v19) (V m c main_v22)) := by
  obtain ⟨-, -, ⟨h0, h1⟩, -⟩ := moving_index t
  rw [flushed8, state_left]
  funext j
  rw [View.read_apply, cast_eq]
  refine store_eq_tiled (V m c main_v17) (V m c main_v19) (V m c main_v22) (iblk m c 0 t) (iblk m c 3 t) (iblk m c 4 t) t.val
    (x_tile_apply m c t) (ws_block_apply m c t) (bs_block_apply m c t) j _ ?_ ?_
  · show win0_8.index t (0 : Fin 2) * 1024 + 1 * (j 0).val = t.val * 1024 + (j 0).val
    rw [h0]; omega
  · show win0_8.index t (1 : Fin 2) * 512 + 1 * (j 1).val = (j 1).val
    rw [h1]; omega

/-- The third result likewise, with Wk and the bk row. -/
theorem flushed9_eq (c : Dev nD) (t : Fin cfg0.N) :
    (dats m 0 c).flushed 9 t
      = ((cfg0.win 9).blk t).view.read (Elt Ideal) (tiled (V m c main_v17) (V m c main_v20) (V m c main_v23)) := by
  obtain ⟨-, -, -, h0, h1⟩ := moving_index t
  rw [flushed9, key_left]
  funext j
  rw [View.read_apply, cast_eq]
  refine store_eq_tiled (V m c main_v17) (V m c main_v20) (V m c main_v23) (iblk m c 0 t) (iblk m c 5 t) (iblk m c 6 t) t.val
    (x_tile_apply m c t) (wk_block_apply m c t) (bk_block_apply m c t) j _ ?_ ?_
  · show win0_9.index t (0 : Fin 2) * 1024 + 1 * (j 0).val = t.val * 1024 + (j 0).val
    rw [h0]; omega
  · show win0_9.index t (1 : Fin 2) * 512 + 1 * (j 1).val = (j 1).val
    rw [h1]; omega

/-! ## The tiles cover each result -/

/-- Row r of a result lies in the tile at block row r / 1024, block column 0: the arithmetic, for any index map
    that sits there. -/
theorem row_in_tile (idx : Fin 2 → Nat) (i : S65536x512.Idx) (h0 : idx 0 = (i 0).val / 1024) (h1 : idx 1 = 0) :
    ∀ a : Fin 2, idx a * S1024x512.size a ≤ (i a).val ∧ (i a).val < idx a * S1024x512.size a + S1024x512.size a := by
  have b0 : (i 0).val < 65536 := (i 0).isLt
  have b1 : (i 1).val < 512 := (i 1).isLt
  intro a
  match a with
  | ⟨0, _⟩ => show idx 0 * 1024 ≤ (i 0).val ∧ (i 0).val < idx 0 * 1024 + 1024; rw [h0]; omega
  | ⟨1, _⟩ => show idx 1 * 512 ≤ (i 1).val ∧ (i 1).val < idx 1 * 512 + 512; rw [h1]; omega

theorem tile_lt (i : S65536x512.Idx) : (i 0).val / 1024 < cfg0.N := by
  have b0 : (i 0).val < 65536 := (i 0).isLt
  rw [show cfg0.N = 64 from N_0]; omega

theorem cover7 (i : S65536x512.Idx) :
    ∃ t : Fin cfg0.N, (cfg0.win 7).flush t = true ∧ i ∈ ((cfg0.win 7).blk t).view.set := by
  obtain ⟨-, ⟨h0, h1⟩, -⟩ := moving_index ⟨(i 0).val / 1024, tile_lt i⟩
  refine ⟨⟨(i 0).val / 1024, tile_lt i⟩, flush0_7 _, ?_⟩
  show i ∈ ((View.whole main_v24_0).slice (win0_7.rect ⟨(i 0).val / 1024, tile_lt i⟩)).set
  rw [View.set_slice_whole, Rect.mem_set_unit]
  exact row_in_tile _ i h0 h1

theorem cover8 (i : S65536x512.Idx) :
    ∃ t : Fin cfg0.N, (cfg0.win 8).flush t = true ∧ i ∈ ((cfg0.win 8).blk t).view.set := by
  obtain ⟨-, -, ⟨h0, h1⟩, -⟩ := moving_index ⟨(i 0).val / 1024, tile_lt i⟩
  refine ⟨⟨(i 0).val / 1024, tile_lt i⟩, flush0_8 _, ?_⟩
  show i ∈ ((View.whole main_v24_1).slice (win0_8.rect ⟨(i 0).val / 1024, tile_lt i⟩)).set
  rw [View.set_slice_whole, Rect.mem_set_unit]
  exact row_in_tile _ i h0 h1

theorem cover9 (i : S65536x512.Idx) :
    ∃ t : Fin cfg0.N, (cfg0.win 9).flush t = true ∧ i ∈ ((cfg0.win 9).blk t).view.set := by
  obtain ⟨-, -, -, h0, h1⟩ := moving_index ⟨(i 0).val / 1024, tile_lt i⟩
  refine ⟨⟨(i 0).val / 1024, tile_lt i⟩, flush0_9 _, ?_⟩
  show i ∈ ((View.whole main_v24_2).slice (win0_9.rect ⟨(i 0).val / 1024, tile_lt i⟩)).set
  rw [View.set_slice_whole, Rect.mem_set_unit]
  exact row_in_tile _ i h0 h1

/-! ## The results after the run -/

theorem final7 (c : Dev nD) : (dats m 0 c).arrAt 7 cfg0.N = tiled (V m c main_v17) (V m c main_v18) (V m c main_v21) :=
  (dats m 0 c).arrAt_eq_of_cover 7 (tiled (V m c main_v17) (V m c main_v18) (V m c main_v21)) (fun t _ => flushed7_eq m c t) cover7
theorem final8 (c : Dev nD) : (dats m 0 c).arrAt 8 cfg0.N = tiled (V m c main_v17) (V m c main_v19) (V m c main_v22) :=
  (dats m 0 c).arrAt_eq_of_cover 8 (tiled (V m c main_v17) (V m c main_v19) (V m c main_v22)) (fun t _ => flushed8_eq m c t) cover8
theorem final9 (c : Dev nD) : (dats m 0 c).arrAt 9 cfg0.N = tiled (V m c main_v17) (V m c main_v20) (V m c main_v23) :=
  (dats m 0 c).arrAt_eq_of_cover 9 (tiled (V m c main_v17) (V m c main_v20) (V m c main_v23)) (fun t _ => flushed9_eq m c t) cover9

/-- The run, read: each result array at the gate over the staged arrays, the arguments unchanged. -/
theorem run : θ_run defs (onTc (τ := τ) (main (F := Ideal))) ⟨m, fun _ => 0, ρ⟩ fun r => ∀ c : Dev nD,
      r.2.mem ((c : Thread nD τ).loc main_v24_0) = tiled (V m c main_v17) (V m c main_v18) (V m c main_v21)
      ∧ r.2.mem ((c : Thread nD τ).loc main_v24_1) = tiled (V m c main_v17) (V m c main_v19) (V m c main_v22)
      ∧ r.2.mem ((c : Thread nD τ).loc main_v24_2) = tiled (V m c main_v17) (V m c main_v20) (V m c main_v23)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final7 m c), (h c).2.1.trans (final8 m c), (h c).2.2.1.trans (final9 m c), (h c).2.2.2⟩)
    (run_blocks m ρ)

end Cert.KernelIdeal.Gated

end
-- ==== Proof.DenseGate.lean ====
/-
  One gate of a three-gate dense layer over a batch of 65536 rows.

  For a row matrix x : 65536 x 1024, a weight matrix w : 1024 x 512 and a bias b : 512 the gate is

      gate x w b (r, c) = logistic ( sum_k x (r, k) * w (k, c)  +  b c ),     logistic z = 1 / (1 + e^(-z)),

  read on the extended reals, where every float is the real number (or infinity) it denotes and a product of two
  matrices is the plain sum of 1024 products, in whatever order or tiling it was computed.  Both programs of this
  certificate compute this function three times (query, state, key weights) of the same x; this module states it
  once, together with the one scalar identity the comparison needs: the quotient 1 / (1 + exp (-z)) written out
  with a host division, a host exponential and a host negation is the logistic function itself.
-/
import Idealize.ShloMosaic.PureOps.Ideal.Laws
import Idealize.ShloMosaic.Lib.ValueIdx

noncomputable section

namespace Cert.DenseGate

open Idealize.ShloMosaic Idealize.ShloMosaic.ValueIdx

/-- The gate: entry (r, c) is the logistic of row r of `x` against column c of `w`, shifted by `b c`. -/
def gate (x : (⟨2, ![65536, 1024]⟩ : Shape).Idx → EReal) (w : (⟨2, ![1024, 512]⟩ : Shape).Idx → EReal)
    (b : (⟨1, ![512]⟩ : Shape).Idx → EReal) : (⟨2, ![65536, 512]⟩ : Shape).Idx → EReal :=
  fun i => Ideal.logistic ((∑ k : Fin 1024, x (ix2 (i 0) k) * w (ix2 k (i 1))) + b (ix1 (i 1)))

theorem gate_apply (x : (⟨2, ![65536, 1024]⟩ : Shape).Idx → EReal) (w : (⟨2, ![1024, 512]⟩ : Shape).Idx → EReal)
    (b : (⟨1, ![512]⟩ : Shape).Idx → EReal) (r : Fin 65536) (c : Fin 512) :
    gate x w b (ix2 r c) = Ideal.logistic ((∑ k : Fin 1024, x (ix2 r k) * w (ix2 k c)) + b (ix1 c)) := rfl

/-- The f32 word of 1.0 denotes the real number one. -/
theorem one_f32 : Ideal.ofBits .f32 0x3F800000#32 = 1 := IdealRules.sign_bit.ideal_onePat .f32

/-- The quotient 1 / (1 + exp (-z)) spelt with the host's division, exponential and negation, both ones the f32
    word of 1.0, is the logistic of z at every extended real z: the logistic is defined as that quotient. -/
theorem quotient_eq_logistic (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [one_f32]
  rfl

end Cert.DenseGate

end
-- ==== Proof.Bridge.lean ====
/-
  The call's three results are the three gates of the rows the program formed before the call.

  The gate over the staged arrays reads x and the weights through their narrowing to bf16 and the bias through its
  reshaping to one row.  On the extended reals a narrowing changes no value, and entry (0, q) of the bias row is entry
  q of the bias: the gate over the staged arrays is the gate of the rows with the weights and bias as they were given.
-/
import proofs.«123083_j75935021793842_1_alg».proof.Proof.Blocks
import proofs.«123083_j75935021793842_1_alg».proof.Proof.DenseGate

noncomputable section

namespace Cert.KernelIdeal.Bridge

open Cert.KernelIdeal Cert.KernelIdeal.Gen Cert.KernelIdeal.Staged Cert.KernelIdeal.Gated
open Idealize.ShloMosaic Idealize.ShloMosaic.TcCoe Idealize.SL.Sem Idealize.ShloMosaic.ValueIdx

variable (m : (ℓ : Loc nD τ sig) → Buf (Elt Ideal) ℓ) (ρ : Dev nD → PrngReg)

/-- The gate over narrowed rows, narrowed weights and the bias as a row is the gate of the rows, weights and bias. -/
theorem tiled_eq_gate (R : (⟨S65536x1024, .f32⟩ : BufTy).Contents (Elt Ideal)) (W : (⟨S1024x512, .f32⟩ : BufTy).Contents (Elt Ideal))
    (b : (⟨S512, .f32⟩ : BufTy).Contents (Elt Ideal)) :
    tiled (truncf (F := Ideal) .bf16 R bitsLt_bf16_f32) (truncf (F := Ideal) .bf16 W bitsLt_bf16_f32) (shapeCast S1x512 b shapeCasts_S512_S1x512)
      = Cert.DenseGate.gate R W b := by
  funext i
  obtain ⟨r, q, rfl⟩ : ∃ (r : Fin 65536) (q : Fin 512), i = ix2 r q := ⟨i 0, i 1, eq_ix2 i⟩
  exact congrArg (fun z => Ideal.logistic ((∑ k : Fin 1024, R (ix2 r k) * W (ix2 k q)) + z)) (bias_row_apply b q)

theorem query_result (c : Dev nD) :
    tiled (V m c main_v17) (V m c main_v18) (V m c main_v21)
      = Cert.DenseGate.gate (rows (m ((c : Thread nD τ).loc main_arg0)) (m ((c : Thread nD τ).loc main_arg1)) (m ((c : Thread nD τ).loc main_arg2))) (m ((c : Thread nD τ).loc main_arg3)) (m ((c : Thread nD τ).loc main_arg4)) := by
  rw [x_staged, wq_staged, bq_staged]
  exact tiled_eq_gate _ _ _

theorem state_result (c : Dev nD) :
    tiled (V m c main_v17) (V m c main_v19) (V m c main_v22)
      = Cert.DenseGate.gate (rows (m ((c : Thread nD τ).loc main_arg0)) (m ((c : Thread nD τ).loc main_arg1)) (m ((c : Thread nD τ).loc main_arg2))) (m ((c : Thread nD τ).loc main_arg5)) (m ((c : Thread nD τ).loc main_arg6)) := by
  rw [x_staged, ws_staged, bs_staged]
  exact tiled_eq_gate _ _ _

theorem key_result (c : Dev nD) :
    tiled (V m c main_v17) (V m c main_v20) (V m c main_v23)
      = Cert.DenseGate.gate (rows (m ((c : Thread nD τ).loc main_arg0)) (m ((c : Thread nD τ).loc main_arg1)) (m ((c : Thread nD τ).loc main_arg2))) (m ((c : Thread nD τ).loc main_arg7)) (m ((c : Thread nD τ).loc main_arg8)) := by
  rw [x_staged, wk_staged, bk_staged]
  exact tiled_eq_gate _ _ _

/-- The idealized kernel's run: every weakly fair execution ends with the three results at the three gates of the rows,
    the arguments unchanged. -/
theorem run : θ_run defs (onTc (τ := τ) (main (F := Ideal))) ⟨m, fun _ => 0, ρ⟩ fun r => ∀ c : Dev nD,
      r.2.mem ((c : Thread nD τ).loc main_v24_0)
        = Cert.DenseGate.gate (rows (m ((c : Thread nD τ).loc main_arg0)) (m ((c : Thread nD τ).loc main_arg1)) (m ((c : Thread nD τ).loc main_arg2))) (m ((c : Thread nD τ).loc main_arg3)) (m ((c : Thread nD τ).loc main_arg4))
      ∧ r.2.mem ((c : Thread nD τ).loc main_v24_1)
        = Cert.DenseGate.gate (rows (m ((c : Thread nD τ).loc main_arg0)) (m ((c : Thread nD τ).loc main_arg1)) (m ((c : Thread nD τ).loc main_arg2))) (m ((c : Thread nD τ).loc main_arg5)) (m ((c : Thread nD τ).loc main_arg6))
      ∧ r.2.mem ((c : Thread nD τ).loc main_v24_2)
        = Cert.DenseGate.gate (rows (m ((c : Thread nD τ).loc main_arg0)) (m ((c : Thread nD τ).loc main_arg1)) (m ((c : Thread nD τ).loc main_arg2))) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (query_result m c), (h c).2.1.trans (state_result m c),
      (h c).2.2.1.trans (key_result m c), (h c).2.2.2⟩)
    (Cert.KernelIdeal.Gated.run m ρ)

end Cert.KernelIdeal.Bridge

end
-- ==== Proof.RefGates.lean ====
/-
  The reference computes the gate three times.

  Its program forms the rows x (row sums of the gathered memories, added to the gathered embeddings) and then, for each
  of the three weight matrices W and biases b,

      1 / (1 + exp (-(x . W + b)))      (b repeated down the 65536 rows),

  with the product a host contraction over the 1024 columns of x.  Read index by index on the extended reals, entry
  (r, c) is 1 / (1 + exp (-(sum_k x (r, k) * W (k, c) + b c))), and that quotient is the logistic: each result is
  the gate of x with its own weights and bias.  The rows x stay folded: nothing here looks inside the gathers or the sum.
-/
import proofs.«123083_j75935021793842_1_alg».proof.Proof.Gen.ReferenceIdeal.Read
import proofs.«123083_j75935021793842_1_alg».proof.Proof.DenseGate

noncomputable section

namespace Cert.ReferenceIdeal.Gates

open Cert.ReferenceIdeal Cert.ReferenceIdeal.Gen Cert.ReferenceIdeal.Read Idealize.ShloMosaic Idealize.ShloMosaic.ValueIdx

/-- The scalar 1.0 spread over the result's shape is the word of 1.0 at every index. -/
theorem ones_apply (i : S65536x512.Idx) :
    broadcastInDim (α := Elt Ideal .f32) S65536x512 ![] bcast_S_S65536x512 (constant (F := Ideal) S_ .f32 0x3F800000#32) i
      = FloatOps.ofBits (F := Ideal) .f32 0x3F800000#32 :=
  broadcastInDim_apply _ bcast_S_S65536x512 (constant (F := Ideal) S_ .f32 0x3F800000#32) i (fun a => a.elim0) (fun a => a.elim0)

/-- THE ARGUMENT, once: whenever `prod` is the product of the rows with W index by index and `shift` is b repeated
    down the rows, the reference's quotient 1 / (1 + exp (-(prod + shift))) is the gate of the rows with W and b. -/
theorem gate_of_parts (X : (⟨S65536x1024, .f32⟩ : BufTy).Contents (Elt Ideal)) (W : (⟨S1024x512, .f32⟩ : BufTy).Contents (Elt Ideal))
    (b : (⟨S512, .f32⟩ : BufTy).Contents (Elt Ideal)) (prod shift : (⟨S65536x512, .f32⟩ : BufTy).Contents (Elt Ideal))
    (hprod : ∀ i : S65536x512.Idx, prod i = ∑ k : Fin 1024, X (ix2 (i 0) k) * W (ix2 k (i 1)))
    (hshift : ∀ i : S65536x512.Idx, shift i = b (ix1 (i 1))) :
    Host.divf (broadcastInDim S65536x512 ![] bcast_S_S65536x512 (constant (F := Ideal) S_ .f32 0x3F800000#32))
        (addf (broadcastInDim S65536x512 ![] bcast_S_S65536x512 (constant (F := Ideal) S_ .f32 0x3F800000#32))
          (Host.exp (Host.negf (addf prod shift))))
      = Cert.DenseGate.gate X W b := by
  funext i
  show FloatOps.hostDivf (F := Ideal) (φ := .f32) (broadcastInDim S65536x512 ![] bcast_S_S65536x512 (constant (F := Ideal) S_ .f32 0x3F800000#32) i)
      (FloatOps.addf (broadcastInDim S65536x512 ![] bcast_S_S65536x512 (constant (F := Ideal) S_ .f32 0x3F800000#32) i)
        (FloatOps.hostUnary .exp (FloatOps.hostNegf (FloatOps.addf (prod i) (shift i))))) = _
  rw [ones_apply, Cert.DenseGate.quotient_eq_logistic, hprod, hshift]
  rfl

/-- The first result is the gate of the rows with Wq and bq. -/
theorem query_eq_gate (x0 : (⟨S65536, .i32⟩ : BufTy).Contents (Elt Ideal)) (x1 : (⟨S100000x1x1024, .f32⟩ : BufTy).Contents (Elt Ideal))
    (x2 : (⟨S100000x1024, .f32⟩ : BufTy).Contents (Elt Ideal))
    (x3 : (⟨S1024x512, .f32⟩ : BufTy).Contents (Elt Ideal)) (x4 : (⟨S512, .f32⟩ : BufTy).Contents (Elt Ideal)) :
    val_main_v26 (F := Ideal) x0 x1 x2 x3 x4 = Cert.DenseGate.gate (val_main_v16 (F := Ideal) x0 x1 x2) x3 x4 :=
  gate_of_parts _ x3 x4 (val_main_v17 (F := Ideal) x0 x1 x2 x3) (val_main_v19 (F := Ideal) x4)
    (fun i => (val_main_v17_apply x0 x1 x2 x3 i).trans (Finset.sum_congr rfl fun k _ => by
      rw [show lidx_main_v17 i k = ix2 (i 0) k from funext fun a => by match a with | ⟨0, _⟩ => rfl | ⟨1, _⟩ => rfl,
        show ridx_main_v17 i k = ix2 k (i 1) from funext fun a => by match a with | ⟨0, _⟩ => rfl | ⟨1, _⟩ => rfl]
      rfl))
    (fun i => by
      rw [val_main_v19_apply, val_main_v18_apply]
      exact congrArg x4 (funext fun a => by match a with | ⟨0, _⟩ => rfl))

/-- The second result is the gate of the rows with Ws and bs. -/
theorem state_eq_gate (x0 : (⟨S65536, .i32⟩ : BufTy).Contents (Elt Ideal)) (x1 : (⟨S100000x1x1024, .f32⟩ : BufTy).Contents (Elt Ideal))
    (x2 : (⟨S100000x1024, .f32⟩ : BufTy).Contents (Elt Ideal))
    (x5 : (⟨S1024x512, .f32⟩ : BufTy).Contents (Elt Ideal)) (x6 : (⟨S512, .f32⟩ : BufTy).Contents (Elt Ideal)) :
    val_main_v36 (F := Ideal) x0 x1 x2 x5 x6 = Cert.DenseGate.gate (val_main_v16 (F := Ideal) x0 x1 x2) x5 x6 :=
  gate_of_parts _ x5 x6 (val_main_v27 (F := Ideal) x0 x1 x2 x5) (val_main_v29 (F := Ideal) x6)
    (fun i => (val_main_v27_apply x0 x1 x2 x5 i).trans (Finset.sum_congr rfl fun k _ => by
      rw [show lidx_main_v27 i k = ix2 (i 0) k from funext fun a => by match a with | ⟨0, _⟩ => rfl | ⟨1, _⟩ => rfl,
        show ridx_main_v27 i k = ix2 k (i 1) from funext fun a => by match a with | ⟨0, _⟩ => rfl | ⟨1, _⟩ => rfl]
      rfl))
    (fun i => by
      rw [val_main_v29_apply, val_main_v28_apply]
      exact congrArg x6 (funext fun a => by match a with | ⟨0, _⟩ => rfl))

/-- The third result is the gate of the rows with Wk and bk. -/
theorem key_eq_gate (x0 : (⟨S65536, .i32⟩ : BufTy).Contents (Elt Ideal)) (x1 : (⟨S100000x1x1024, .f32⟩ : BufTy).Contents (Elt Ideal))
    (x2 : (⟨S100000x1024, .f32⟩ : BufTy).Contents (Elt Ideal))
    (x7 : (⟨S1024x512, .f32⟩ : BufTy).Contents (Elt Ideal)) (x8 : (⟨S512, .f32⟩ : BufTy).Contents (Elt Ideal)) :
    val_main_v46 (F := Ideal) x0 x1 x2 x7 x8 = Cert.DenseGate.gate (val_main_v16 (F := Ideal) x0 x1 x2) x7 x8 :=
  gate_of_parts _ x7 x8 (val_main_v37 (F := Ideal) x0 x1 x2 x7) (val_main_v39 (F := Ideal) x8)
    (fun i => (val_main_v37_apply x0 x1 x2 x7 i).trans (Finset.sum_congr rfl fun k _ => by
      rw [show lidx_main_v37 i k = ix2 (i 0) k from funext fun a => by match a with | ⟨0, _⟩ => rfl | ⟨1, _⟩ => rfl,
        show ridx_main_v37 i k = ix2 k (i 1) from funext fun a => by match a with | ⟨0, _⟩ => rfl | ⟨1, _⟩ => rfl]
      rfl))
    (fun i => by
      rw [val_main_v39_apply, val_main_v38_apply]
      exact congrArg x8 (funext fun a => by match a with | ⟨0, _⟩ => rfl))

end Cert.ReferenceIdeal.Gates

end
-- ==== Proof.lean ====
/-
  A three-gate dense layer over gathered rows: the kernel against its reference, over the extended reals.

  Both programs first form, with the same host operations, the rows

      x (r, :) = (sum of the entries of memory row ids r)  +  embedding row ids r          (65536 rows of 1024),

  a negative id counting from the end.  The reference then computes, for (W, b) = (Wq, bq), (Ws, bs), (Wk, bk),

      1 / (1 + exp (-(x . W + b))).

  The kernel narrows x and the weights to bf16, reshapes each bias to one row, and runs one call over 64 row tiles of
  1024 rows; at each tile the body multiplies the tile by each weight matrix into a zero accumulator, adds the bias row
  and applies the logistic, writing one tile of each of the three results.

  Over the extended reals a narrowing is the identity, a matrix product is the sum of its 1024 products however it was
  tiled or accumulated, and the logistic IS the quotient 1 / (1 + exp (-z)).  So every entry (r, c) of every result is,
  on both sides, logistic (sum_k x (r, k) * W (k, c) + b c): `Cert.DenseGate.gate`.  No law that could fail at an
  infinity is used, so the finiteness of the inputs is never opened.

  The modules: DenseGate (the gate, and the quotient as the logistic); RefGates (the reference's three results are
  gates of its rows); TileGate (one store of the body, index by index); Staged (what the call finds in its arrays and
  which entries a tile holds); Blocks (the 64 tiles are one function of the staged arrays and cover each result);
  Bridge (the staged arrays denote the given ones).  Here: the two programs' rows are one term, and the five claims.
-/
import proofs.«123083_j75935021793842_1_alg».proof.Defs
import proofs.«123083_j75935021793842_1_alg».proof.Proof.Gen.Kernel
import proofs.«123083_j75935021793842_1_alg».proof.Proof.Gen.Kernel.Skeleton
import proofs.«123083_j75935021793842_1_alg».proof.Proof.Gen.Kernel.Launch
import proofs.«123083_j75935021793842_1_alg».proof.Proof.Gen.Kernel.Points
import proofs.«123083_j75935021793842_1_alg».proof.Proof.Gen.Kernel.Frame
import proofs.«123083_j75935021793842_1_alg».proof.Proof.Gen.KernelIdeal
import proofs.«123083_j75935021793842_1_alg».proof.Proof.Gen.KernelIdeal.Skeleton
import proofs.«123083_j75935021793842_1_alg».proof.Proof.Gen.KernelIdeal.Launch
import proofs.«123083_j75935021793842_1_alg».proof.Proof.Gen.KernelIdeal.Points
import proofs.«123083_j75935021793842_1_alg».proof.Proof.Gen.KernelIdeal.Frame
import proofs.«123083_j75935021793842_1_alg».proof.Proof.Gen.ReferenceIdeal
import proofs.«123083_j75935021793842_1_alg».proof.Proof.Gen.Pre_finite_inputs
import proofs.«123083_j75935021793842_1_alg».proof.Proof.Gen.KernelIdeal.Value
import proofs.«123083_j75935021793842_1_alg».proof.Proof.Gen.ReferenceIdeal.Run
import proofs.«123083_j75935021793842_1_alg».proof.Proof.Gen.ReferenceIdeal.Read
import proofs.«123083_j75935021793842_1_alg».proof.Proof.Bridge
import proofs.«123083_j75935021793842_1_alg».proof.Proof.RefGates
import Idealize.ShloMosaic.Adequacy
import Idealize.ShloMosaic.Init

noncomputable section

namespace Cert.Proof

open Idealize.ShloMosaic Idealize.ShloMosaic.TcCoe Idealize.SL.Sem

/-- The rows as the kernel's program forms them are the rows as the reference's program forms them: the same host
    operations on the same arguments, so one term (the shape records of the two programs are equal field by field). -/
theorem rows_eq (ids : (⟨Cert.KernelIdeal.S65536, .i32⟩ : BufTy).Contents (Elt Ideal))
    (mem : (⟨Cert.KernelIdeal.S100000x1x1024, .f32⟩ : BufTy).Contents (Elt Ideal))
    (emb : (⟨Cert.KernelIdeal.S100000x1024, .f32⟩ : BufTy).Contents (Elt Ideal)) :
    Cert.ReferenceIdeal.Read.val_main_v16 (F := Ideal) ids mem emb = Cert.KernelIdeal.Staged.rows (F := Ideal) ids mem emb := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealized kernel is the kernel's own text read over the extended reals. -/
theorem preserves : Cert.preserves_Kernel_KernelIdeal := trivial

/-- From memories that agree on the arguments the kernel ends at the three gates of its rows, and the reference at the
    three gates of its rows, with the same weights and biases: the rows are one term. -/
theorem algebraic : Cert.algebraic_KernelIdeal_ReferenceIdeal := by
  intro m ρ m' ρ' _ hagree
  refine ⟨_, _, _, Cert.KernelIdeal.Bridge.run m ρ, ?_⟩
  refine (θ_run Cert.ReferenceIdeal.defs _ _).mono (fun r h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2.1.trans ?_, (h c).2.2.2⟩
  · rw [Cert.ReferenceIdeal.Read.val_main_v26_eq, Cert.ReferenceIdeal.Gates.query_eq_gate, a0, a1, a2, a3, a4, rows_eq]
  · rw [Cert.ReferenceIdeal.Read.val_main_v36_eq, Cert.ReferenceIdeal.Gates.state_eq_gate, a0, a1, a2, a5, a6, rows_eq]
  · rw [Cert.ReferenceIdeal.Read.val_main_v46_eq, Cert.ReferenceIdeal.Gates.key_eq_gate, a0, a1, a2, a7, a8, rows_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
